-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x625000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S100000x1 : Shape := ⟨2, ![100000, 1]⟩
abbrev S625000x128 : Shape := ⟨2, ![625000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 50
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .f32⟩
  | .hbm, ⟨11, _⟩ => ⟨S625000, .f32⟩
  | .hbm, ⟨12, _⟩ => ⟨S_, .f32⟩
  | .hbm, ⟨13, _⟩ => ⟨S100000, .f32⟩
  | .hbm, ⟨14, _⟩ => ⟨S625000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S625000, .i32⟩
  | .hbm, ⟨22, _⟩ => ⟨S625000, .i1⟩
  | .hbm, ⟨23, _⟩ => ⟨S_, .i32⟩
  | .hbm, ⟨24, _⟩ => ⟨S625000, .i32⟩
  | .hbm, ⟨25, _⟩ => ⟨S625000, .i32⟩
  | .hbm, ⟨26, _⟩ => ⟨S625000, .i32⟩
  | .hbm, ⟨27, _⟩ => ⟨S625000x1, .i32⟩
  | .hbm, ⟨28, _⟩ => ⟨S625000x128, .f32⟩
  | .hbm, ⟨29, _⟩ => ⟨S_, .f32⟩
  | .hbm, ⟨30, _⟩ => ⟨S100000x128, .f32⟩
  | .hbm, ⟨31, _⟩ => ⟨S625000x1, .i32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S625000, .i32⟩
  | .hbm, ⟨37, _⟩ => ⟨S625000, .i1⟩
  | .hbm, ⟨38, _⟩ => ⟨S_, .i32⟩
  | .hbm, ⟨39, _⟩ => ⟨S625000, .i32⟩
  | .hbm, ⟨40, _⟩ => ⟨S625000, .i32⟩
  | .hbm, ⟨41, _⟩ => ⟨S625000, .i32⟩
  | .hbm, ⟨42, _⟩ => ⟨S625000x1, .i32⟩
  | .hbm, ⟨43, _⟩ => ⟨S625000x128, .f32⟩
  | .hbm, ⟨44, _⟩ => ⟨S_, .f32⟩
  | .hbm, ⟨45, _⟩ => ⟨S100000x128, .f32⟩
  | .hbm, ⟨46, _⟩ => ⟨S625000x1, .i32⟩
  | .hbm, ⟨47, _⟩ => ⟨S100000x128, .f32⟩
  | .hbm, ⟨48, _⟩ => ⟨S1x128, .f32⟩
  | .hbm, ⟨49, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S625000x1_S625000_n_0_0_1_wf : ScatterDims.WF S100000 S625000x1 S625000 [] [0] [0] 1
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S100000x1 : Shape := ⟨2, ![100000, 1]⟩
abbrev S625000x128 : Shape := ⟨2, ![625000, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .f32⟩
  | .hbm, ⟨11, _⟩ => ⟨S625000, .f32⟩
  | .hbm, ⟨12, _⟩ => ⟨S_, .f32⟩
  | .hbm, ⟨13, _⟩ => ⟨S100000, .f32⟩
  | .hbm, ⟨14, _⟩ => ⟨S625000x1, .i32⟩
  | .hbm, ⟨15, _⟩ => ⟨S100000, .f32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S_, .i32⟩
  | .hbm, ⟨21, _⟩ => ⟨S625000, .i32⟩
  | .hbm, ⟨22, _⟩ => ⟨S625000, .i1⟩
  | .hbm, ⟨23, _⟩ => ⟨S_, .i32⟩
  | .hbm, ⟨24, _⟩ => ⟨S625000, .i32⟩
  | .hbm, ⟨25, _⟩ => ⟨S625000, .i32⟩
  | .hbm, ⟨26, _⟩ => ⟨S625000, .i32⟩
  | .hbm, ⟨27, _⟩ => ⟨S625000x1, .i32⟩
  | .hbm, ⟨28, _⟩ => ⟨S625000x128, .f32⟩
  | .hbm, ⟨29, _⟩ => ⟨S_, .f32⟩
  | .hbm, ⟨30, _⟩ => ⟨S100000x128, .f32⟩
  | .hbm, ⟨31, _⟩ => ⟨S625000x1, .i32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S625000, .i32⟩
  | .hbm, ⟨45, _⟩ => ⟨S625000, .i1⟩
  | .hbm, ⟨46, _⟩ => ⟨S_, .i32⟩
  | .hbm, ⟨47, _⟩ => ⟨S625000, .i32⟩
  | .hbm, ⟨48, _⟩ => ⟨S625000, .i32⟩
  | .hbm, ⟨49, _⟩ => ⟨S625000, .i32⟩
  | .hbm, ⟨50, _⟩ => ⟨S625000x1, .i32⟩
  | .hbm, ⟨51, _⟩ => ⟨S625000x128, .f32⟩
  | .hbm, ⟨52, _⟩ => ⟨S_, .f32⟩
  | .hbm, ⟨53, _⟩ => ⟨S100000x128, .f32⟩
  | .hbm, ⟨54, _⟩ => ⟨S625000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S625000x1_S625000_n_0_0_1_wf : ScatterDims.WF S100000 S625000x1 S625000 [] [0] [0] 1
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Payload.lean ====
/-
  What the two kernel bodies compute from the blocks they load, read at one entry.

  Each body loads a 5000-row block of the summed neighbour features, of the node features and of the divisors, the
  whole weight matrix and the bias row; it forms `(agg + h) / d` (the divisor broadcast along the row), multiplies by
  the weights on the matrix unit into a zero accumulator, and adds the bias broadcast down the rows; the first body
  then takes the maximum with zero. On the extended reals a change of float format is the identity and the matrix
  product into zero is the plain sum of products over the 128 feature coordinates, so entry `(p, q)` of the stored
  value is `Σ_k ((agg (p, k) + h (p, k)) / d (p, 0)) · W (k, q) + b (0, q)`, with the positive part in the first body.
-/
import proofs.«153772_j35253091565752_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The matrix product of a block with the weights, at an entry -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at entry `(p, q)`: the sum over the 128 feature coordinates of the
    left block's row `p` against the right matrix's column `q`. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The two broadcasts, at an entry -/

/-- The divisor column broadcast along the row: entry `(p, q)` is the column's entry `(p, 0)`. -/
theorem bcast_col_at (v : (S5000x1).Idx → EReal) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- The bias row broadcast down the rows: entry `(p, q)` is the row's entry `(0, q)`. -/
theorem bcast_row_at (v : (S1x128).Idx → EReal) (p : Fin 5000) (q : Fin 128) :
    broadcastTo S5000x128 v broadcasts_S1x128_S5000x128 (ix2 p q) = v (ix2 (0 : Fin 1) q) :=
  broadcastTo_1b_ab_apply v broadcasts_S1x128_S5000x128 p q

/-! ## The stored values, at an entry -/

/-- The first body's stored value at `(p, q)`. -/
theorem pay0_at (x0 x1 : Vec Ideal S5000x128 .f32) (x2 : Vec Ideal S5000x1 .f32) (x3 : Vec Ideal S128x128 .f32)
    (x4 : Vec Ideal S1x128 .f32) (p : Fin 5000) (q : Fin 128) :
    k0_pay1 x0 x1 x2 x3 x4 (ix2 p q)
      = max ((∑ k : Fin 128, Ideal.div (x0 (ix2 p k) + x1 (ix2 p k)) (x2 (ix2 p (0 : Fin 1))) * x3 (ix2 k q)) + x4 (ix2 (0 : Fin 1) q)) 0 := by
  unfold k0_pay1
  simp only [shapeCast_self]
  show max (matmul (F := Ideal) dot_S5000x128_S128x128_S5000x128_1_0_0_1_n_n none _ _ (constant (F := Ideal) S5000x128 .f32 0x00000000#32) (ix2 p q)
      + broadcastTo S5000x128 x4 broadcasts_S1x128_S5000x128 (ix2 p q)) (Ideal.ofBits .f32 0x00000000#32) = _
  rw [matmul_at, bcast_row_at, Ideal.ofBits_zero_f32]
  refine congrArg (fun s => max (s + x4 (ix2 (0 : Fin 1) q)) 0) (Finset.sum_congr rfl fun k _ => ?_)
  show Ideal.div (x0 (ix2 p k) + x1 (ix2 p k)) (broadcastTo S5000x128 x2 broadcasts_S5000x1_S5000x128 (ix2 p k)) * x3 (ix2 k q) = _
  rw [bcast_col_at]

/-- The second body's stored value at `(p, q)`. -/
theorem pay1_at (x0 x1 : Vec Ideal S5000x128 .f32) (x2 : Vec Ideal S5000x1 .f32) (x3 : Vec Ideal S128x128 .f32)
    (x4 : Vec Ideal S1x128 .f32) (p : Fin 5000) (q : Fin 128) :
    k1_pay1 x0 x1 x2 x3 x4 (ix2 p q)
      = (∑ k : Fin 128, Ideal.div (x0 (ix2 p k) + x1 (ix2 p k)) (x2 (ix2 p (0 : Fin 1))) * x3 (ix2 k q)) + x4 (ix2 (0 : Fin 1) q) := by
  unfold k1_pay1
  simp only [shapeCast_self]
  show matmul (F := Ideal) dot_S5000x128_S128x128_S5000x128_1_0_0_1_n_n none _ _ (constant (F := Ideal) S5000x128 .f32 0x00000000#32) (ix2 p q)
      + broadcastTo S5000x128 x4 broadcasts_S1x128_S5000x128 (ix2 p q) = _
  rw [matmul_at, bcast_row_at]
  refine congrArg (fun s => s + x4 (ix2 (0 : Fin 1) q)) (Finset.sum_congr rfl fun k _ => ?_)
  show Ideal.div (x0 (ix2 p k) + x1 (ix2 p k)) (broadcastTo S5000x128 x2 broadcasts_S5000x1_S5000x128 (ix2 p k)) * x3 (ix2 k q) = _
  rw [bcast_col_at]

end Cert.KernelIdeal.Payload

end
-- ==== Proof.Layer.lean ====
/-
  One layer of the network, as a function on the extended reals.

  A layer takes the summed neighbour features `a`, the node features `h` (both 100000 × 128), one divisor per node
  `d` (100000 × 1: the in-degree plus one), a weight matrix `W` (128 × 128) and a bias row `b` (1 × 128). Row `r` of
  the result is the row vector `(a r + h r) / d r` times `W`, plus `b`:

      lin a h d W b (r, j) = Σ_k ((a (r, k) + h (r, k)) / d (r, 0)) · W (k, j) + b (0, j),

  and the first layer is followed by the positive part, `act = max (lin …) 0`. Every operation is the exact one on
  the extended reals; the sum runs over the 128 feature coordinates in whatever order (a finite sum of extended reals
  is commutative and associative), which is why neither the tiling of the rows nor the unit that computes the product
  shows in the value.
-/
import Idealize.ShloMosaic.PureOps.Ideal
import Idealize.ShloMosaic.Lib.ValueIdx

noncomputable section

namespace Cert.Sage

open Idealize.ShloMosaic Idealize.ShloMosaic.ValueIdx

/-- Node features: one row of 128 per node. -/
abbrev Nodes : Shape := ⟨2, ![100000, 128]⟩
/-- One number per node, kept as a column. -/
abbrev Col : Shape := ⟨2, ![100000, 1]⟩
/-- A square weight matrix. -/
abbrev Wt : Shape := ⟨2, ![128, 128]⟩
/-- A bias, kept as a row. -/
abbrev Row : Shape := ⟨2, ![1, 128]⟩

/-- The affine part of a layer at row `r`, column `j`. -/
def linAt (a h : Nodes.Idx → EReal) (d : Col.Idx → EReal) (W : Wt.Idx → EReal) (b : Row.Idx → EReal)
    (r : Fin 100000) (j : Fin 128) : EReal :=
  (∑ k : Fin 128, Ideal.div (a (ix2 r k) + h (ix2 r k)) (d (ix2 r (0 : Fin 1))) * W (ix2 k j)) + b (ix2 (0 : Fin 1) j)

/-- The affine part of a layer: mean over the node and its neighbours, then the linear map and the bias. -/
def lin (a h : Nodes.Idx → EReal) (d : Col.Idx → EReal) (W : Wt.Idx → EReal) (b : Row.Idx → EReal) : Nodes.Idx → EReal :=
  fun i => linAt a h d W b (i 0) (i 1)

/-- A layer followed by the positive part. -/
def act (a h : Nodes.Idx → EReal) (d : Col.Idx → EReal) (W : Wt.Idx → EReal) (b : Row.Idx → EReal) : Nodes.Idx → EReal :=
  fun i => max (linAt a h d W b (i 0) (i 1)) 0

theorem lin_ix2 (a h : Nodes.Idx → EReal) (d : Col.Idx → EReal) (W : Wt.Idx → EReal) (b : Row.Idx → EReal)
    (r : Fin 100000) (j : Fin 128) : lin a h d W b (ix2 r j) = linAt a h d W b r j := rfl

theorem act_ix2 (a h : Nodes.Idx → EReal) (d : Col.Idx → EReal) (W : Wt.Idx → EReal) (b : Row.Idx → EReal)
    (r : Fin 100000) (j : Fin 128) : act a h d W b (ix2 r j) = max (linAt a h d W b r j) 0 := rfl

end Cert.Sage

end
-- ==== Proof.Blocks.lean ====
/-
  From blocks to arrays: what each of the two kernel regions leaves in its output array.

  A region runs its body once per grid point `t = 0 … 19`. At point `t` the three row-blocked operands hold rows
  `5000 t … 5000 t + 4999` of their arrays, the weights and the bias are whole, and the body's stored value is
  written back to the same rows of the output array. Read at an entry (the payload lemmas), the stored value at local
  row `p` is the layer's function of the arrays at node `5000 t + p`; the twenty row blocks tile the 100000 rows; so
  the output array ends holding the layer's function of the arrays the region was entered with — the first region with
  the positive part, the second without. Everything is stated at an arbitrary valuation `V` of the buffers at region
  entry, which the run instantiates.
-/
import proofs.«153772_j35253091565752_1_alg».proof.Proof.Gen.KernelIdeal.Frame
import proofs.«153772_j35253091565752_1_alg».proof.Proof.Payload
import proofs.«153772_j35253091565752_1_alg».proof.Proof.Layer
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

section Region0

/-- The arrays region 0 reads, as it finds them, at their literal types. -/
abbrev A0 (c : Dev nD) : Nodes.Idx → EReal := V c main_v20
abbrev H0 (c : Dev nD) : Nodes.Idx → EReal := V c main_arg0
abbrev D0 (c : Dev nD) : Col.Idx → EReal := V c main_v10
abbrev W0 (c : Dev nD) : Wt.Idx → EReal := V c main_arg2
abbrev B0 (c : Dev nD) : Row.Idx → EReal := V c main_v21

/-- The node a grid point's local row stands for: point `t` holds rows `5000 t … 5000 t + 4999`. -/
def row0 (t : Fin cfg0.N) (p : Fin 5000) : Fin 100000 :=
  ⟨t.val * 5000 + p.val, by have := Nat.lt_of_lt_of_eq t.isLt N_0; have := p.isLt; omega⟩

/-- The printed index maps over the grid: the three row-blocked inputs and the output sit at block `(t, 0)`, the
    weights and the bias at block `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry `(p, k)` of the neighbour-sum block at point `t` is the array's entry at node `5000 t + p`. -/
theorem readA0 (c : Dev nD) (t : Fin cfg0.N) (p : Fin 5000) (k : Fin 128) :
    (iblk0 V c 0 t : Vec Ideal S5000x128 .f32) (ix2 p k) = A0 V c (ix2 (row0 t p) k) := by
  show V c main_v20 (((cfg0.win 0).blk t).view.emb (ix2 p k)) = V c main_v20 (ix2 (row0 t p) k)
  obtain ⟨e0, e1, -⟩ := idx0 t
  refine congrArg (V c main_v20) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The same for the node-feature block. -/
theorem readH0 (c : Dev nD) (t : Fin cfg0.N) (p : Fin 5000) (k : Fin 128) :
    (iblk0 V c 1 t : Vec Ideal S5000x128 .f32) (ix2 p k) = H0 V c (ix2 (row0 t p) k) := by
  show V c main_arg0 (((cfg0.win 1).blk t).view.emb (ix2 p k)) = V c main_arg0 (ix2 (row0 t p) k)
  obtain ⟨-, -, e0, e1, -⟩ := idx0 t
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The divisor block's entry `(p, 0)` is the divisor of node `5000 t + p`. -/
theorem readD0 (c : Dev nD) (t : Fin cfg0.N) (p : Fin 5000) :
    (iblk0 V c 2 t : Vec Ideal S5000x1 .f32) (ix2 p (0 : Fin 1)) = D0 V c (ix2 (row0 t p) (0 : Fin 1)) := by
  show V c main_v10 (((cfg0.win 2).blk t).view.emb (ix2 p (0 : Fin 1))) = V c main_v10 (ix2 (row0 t p) (0 : Fin 1))
  obtain ⟨-, -, -, -, e0, e1, -⟩ := idx0 t
  refine congrArg (V c main_v10) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- The weight window's one block is the whole matrix. -/
theorem readW0 (c : Dev nD) (t : Fin cfg0.N) (k q : Fin 128) :
    (iblk0 V c 3 t : Vec Ideal S128x128 .f32) (ix2 k q) = W0 V c (ix2 k q) := by
  show V c main_arg2 (((cfg0.win 3).blk t).view.emb (ix2 k q)) = V c main_arg2 (ix2 k q)
  obtain ⟨-, -, -, -, -, -, e0, e1, -⟩ := idx0 t
  refine congrArg (V c main_arg2) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias window's one block is the whole row. -/
theorem readB0 (c : Dev nD) (t : Fin cfg0.N) (q : Fin 128) :
    (iblk0 V c 4 t : Vec Ideal S1x128 .f32) (ix2 (0 : Fin 1) q) = B0 V c (ix2 (0 : Fin 1) q) := by
  show V c main_v21 (((cfg0.win 4).blk t).view.emb (ix2 (0 : Fin 1) q)) = V c main_v21 (ix2 (0 : Fin 1) q)
  obtain ⟨-, -, -, -, -, -, -, -, e0, e1, -⟩ := idx0 t
  refine congrArg (V c main_v21) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry `(p, q)` of the output block at point `t` sits in the array at node `5000 t + p`, column `q`. -/
theorem embOut0 (t : Fin cfg0.N) (p : Fin 5000) (q : Fin 128) :
    ((cfg0.win 5).blk t).view.emb (ix2 p q) = (ix2 (row0 t p) q : Nodes.Idx) := by
  obtain ⟨-, -, -, -, -, -, -, -, -, -, e0, e1⟩ := idx0 t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- WHAT POINT `t` WRITES BACK is block `t` of the layer's function of the arrays the region finds. -/
theorem flushed0_eq (c : Dev nD) (t : Fin cfg0.N) :
    (dat0 V c).flushed 5 t
      = ((cfg0.win 5).blk t).view.read (Elt Ideal) (act (A0 V c) (H0 V c) (D0 V c) (W0 V c) (B0 V c)) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = act (A0 V c) (H0 V c) (D0 V c) (W0 V c) (B0 V c) (((cfg0.win 5).blk t).view.emb (ix2 p q))
  rw [embOut0 t p q, act_ix2]
  refine (Payload.pay0_at (iblk0 V c 0 t) (iblk0 V c 1 t) (iblk0 V c 2 t) (iblk0 V c 3 t) (iblk0 V c 4 t) p q).trans ?_
  unfold linAt
  rw [readD0 V c t p, readB0 V c t q]
  refine congrArg (fun s => max (s + B0 V c (ix2 (0 : Fin 1) q)) 0) (Finset.sum_congr rfl fun k _ => ?_)
  rw [readA0 V c t p k, readH0 V c t p k, readW0 V c t k q]

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every node's row is in the block of the point `row / 5000`: the twenty blocks tile the array. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, by rw [show cfg0.N = 20 from N_0]; omega⟩
  have ht : t.val = (i 0).val / 5000 := rfl
  obtain ⟨-, -, -, -, -, -, -, -, -, -, e0, e1⟩ := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after region 0: the layer's function of the arrays the region finds. -/
theorem final0 (c : Dev nD) :
    (dat0 V c).arrAt 5 cfg0.N = act (A0 V c) (H0 V c) (D0 V c) (W0 V c) (B0 V c) :=
  (dat0 V c).arrAt_eq_of_cover 5 _ (fun t _ => flushed0_eq V c t) cover0

end Region0

/-! ## Region 1 -/

section Region1

/-- The arrays region 1 reads, as it finds them, at their literal types. -/
abbrev A1 (c : Dev nD) : Nodes.Idx → EReal := V c main_v32
abbrev H1 (c : Dev nD) : Nodes.Idx → EReal := V c main_v22
abbrev D1 (c : Dev nD) : Col.Idx → EReal := V c main_v10
abbrev W1 (c : Dev nD) : Wt.Idx → EReal := V c main_arg4
abbrev B1 (c : Dev nD) : Row.Idx → EReal := V c main_v33

/-- The node a grid point's local row stands for: point `t` holds rows `5000 t … 5000 t + 4999`. -/
def row1 (t : Fin cfg1.N) (p : Fin 5000) : Fin 100000 :=
  ⟨t.val * 5000 + p.val, by have := Nat.lt_of_lt_of_eq t.isLt N_1; have := p.isLt; omega⟩

/-- The printed index maps over the grid: the three row-blocked inputs and the output sit at block `(t, 0)`, the
    weights and the bias at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry `(p, k)` of the neighbour-sum block at point `t` is the array's entry at node `5000 t + p`. -/
theorem readA1 (c : Dev nD) (t : Fin cfg1.N) (p : Fin 5000) (k : Fin 128) :
    (iblk1 V c 0 t : Vec Ideal S5000x128 .f32) (ix2 p k) = A1 V c (ix2 (row1 t p) k) := by
  show V c main_v32 (((cfg1.win 0).blk t).view.emb (ix2 p k)) = V c main_v32 (ix2 (row1 t p) k)
  obtain ⟨e0, e1, -⟩ := idx1 t
  refine congrArg (V c main_v32) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The same for the node-feature block. -/
theorem readH1 (c : Dev nD) (t : Fin cfg1.N) (p : Fin 5000) (k : Fin 128) :
    (iblk1 V c 1 t : Vec Ideal S5000x128 .f32) (ix2 p k) = H1 V c (ix2 (row1 t p) k) := by
  show V c main_v22 (((cfg1.win 1).blk t).view.emb (ix2 p k)) = V c main_v22 (ix2 (row1 t p) k)
  obtain ⟨-, -, e0, e1, -⟩ := idx1 t
  refine congrArg (V c main_v22) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The divisor block's entry `(p, 0)` is the divisor of node `5000 t + p`. -/
theorem readD1 (c : Dev nD) (t : Fin cfg1.N) (p : Fin 5000) :
    (iblk1 V c 2 t : Vec Ideal S5000x1 .f32) (ix2 p (0 : Fin 1)) = D1 V c (ix2 (row1 t p) (0 : Fin 1)) := by
  show V c main_v10 (((cfg1.win 2).blk t).view.emb (ix2 p (0 : Fin 1))) = V c main_v10 (ix2 (row1 t p) (0 : Fin 1))
  obtain ⟨-, -, -, -, e0, e1, -⟩ := idx1 t
  refine congrArg (V c main_v10) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- The weight window's one block is the whole matrix. -/
theorem readW1 (c : Dev nD) (t : Fin cfg1.N) (k q : Fin 128) :
    (iblk1 V c 3 t : Vec Ideal S128x128 .f32) (ix2 k q) = W1 V c (ix2 k q) := by
  show V c main_arg4 (((cfg1.win 3).blk t).view.emb (ix2 k q)) = V c main_arg4 (ix2 k q)
  obtain ⟨-, -, -, -, -, -, e0, e1, -⟩ := idx1 t
  refine congrArg (V c main_arg4) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias window's one block is the whole row. -/
theorem readB1 (c : Dev nD) (t : Fin cfg1.N) (q : Fin 128) :
    (iblk1 V c 4 t : Vec Ideal S1x128 .f32) (ix2 (0 : Fin 1) q) = B1 V c (ix2 (0 : Fin 1) q) := by
  show V c main_v33 (((cfg1.win 4).blk t).view.emb (ix2 (0 : Fin 1) q)) = V c main_v33 (ix2 (0 : Fin 1) q)
  obtain ⟨-, -, -, -, -, -, -, -, e0, e1, -⟩ := idx1 t
  refine congrArg (V c main_v33) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Entry `(p, q)` of the output block at point `t` sits in the array at node `5000 t + p`, column `q`. -/
theorem embOut1 (t : Fin cfg1.N) (p : Fin 5000) (q : Fin 128) :
    ((cfg1.win 5).blk t).view.emb (ix2 p q) = (ix2 (row1 t p) q : Nodes.Idx) := by
  obtain ⟨-, -, -, -, -, -, -, -, -, -, e0, e1⟩ := idx1 t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- WHAT POINT `t` WRITES BACK is block `t` of the layer's function of the arrays the region finds. -/
theorem flushed1_eq (c : Dev nD) (t : Fin cfg1.N) :
    (dat1 V c).flushed 5 t
      = ((cfg1.win 5).blk t).view.read (Elt Ideal) (lin (A1 V c) (H1 V c) (D1 V c) (W1 V c) (B1 V c)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = lin (A1 V c) (H1 V c) (D1 V c) (W1 V c) (B1 V c) (((cfg1.win 5).blk t).view.emb (ix2 p q))
  rw [embOut1 t p q, lin_ix2]
  refine (Payload.pay1_at (iblk1 V c 0 t) (iblk1 V c 1 t) (iblk1 V c 2 t) (iblk1 V c 3 t) (iblk1 V c 4 t) p q).trans ?_
  unfold linAt
  rw [readD1 V c t p, readB1 V c t q]
  refine congrArg (fun s => s + B1 V c (ix2 (0 : Fin 1) q)) (Finset.sum_congr rfl fun k _ => ?_)
  rw [readA1 V c t p k, readH1 V c t p k, readW1 V c t k q]

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

/-- Every node's row is in the block of the point `row / 5000`: the twenty blocks tile the array. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, by rw [show cfg1.N = 20 from N_1]; omega⟩
  have ht : t.val = (i 0).val / 5000 := rfl
  obtain ⟨-, -, -, -, -, -, -, -, -, -, e0, e1⟩ := idx1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after region 1: the layer's function of the arrays the region finds. -/
theorem final1 (c : Dev nD) :
    (dat1 V c).arrAt 5 cfg1.N = lin (A1 V c) (H1 V c) (D1 V c) (W1 V c) (B1 V c) :=
  (dat1 V c).arrAt_eq_of_cover 5 _ (fun t _ => flushed1_eq V c t) cover1

end Region1

end Cert.KernelIdeal.Blocks

end
-- ==== Proof.Glue.lean ====
/-
  The host side of the kernel's program: what the operations around the two kernel regions compute, as functions of
  the arguments, and therefore what each region finds in its operand arrays.

  From the edge list `e` (two rows of 625000 node ids) the program takes the source ids (row 0) and the destination
  ids (row 1). `aggOf s d h` is the neighbour sum over edges with sources `s` and destinations `d`: row `s` of `h`
  (a negative id shifted up by the number of nodes, as array indexing does) gathered for every edge and added into row
  `d` of a zero array. `deg d` adds a one per edge into a zero vector, `denom d` is `deg d + 1` kept as a column, and
  `biasRow b` is a bias as a `1 × 128` row. The first region is entered with the neighbour sum of `x`, `x` itself, the
  divisors, `W1` and `b1` as a row; the second, after the same gather and scatter applied to the first region's
  output `h1`, with the neighbour sum of `h1`, `h1`, the same divisors, `W2` and `b2` as a row.
-/
import proofs.«153772_j35253091565752_1_alg».proof.Proof.Gen.KernelIdeal.Frame
import Idealize.ShloMosaic.Lib.StableHlo.Run
import Idealize.ShloMosaic.PureOps.Ideal
import proofs.«153772_j35253091565752_1_alg».proof.Proof.Layer

noncomputable section

namespace Cert.KernelIdeal.Glue

open Cert.KernelIdeal Cert.KernelIdeal.Gen Idealize.ShloMosaic Idealize.ShloMosaic.TcCoe Idealize.SL.Sem Idealize.ShloMosaic.StableHlo

/-- Source node of every edge: row 0 of the edge list. -/
def srcOf (e : IVec S2x625000 32) : IVec S625000 32 :=
  shapeCast _ (extractStridedSlice S1x625000 ![0, 0] e slices_S2x625000_S1x625000_0_0) shapeCasts_S1x625000_S625000

/-- Destination node of every edge: row 1 of the edge list. -/
def dstOf (e : IVec S2x625000 32) : IVec S625000 32 :=
  shapeCast _ (extractStridedSlice S1x625000 ![1, 0] e slices_S2x625000_S1x625000_1_0) shapeCasts_S1x625000_S625000

/-- The neighbour sum: for every edge, row `s` of `h` (a negative `s` shifted up by the number of nodes) added into
    row `d` of a zero array. -/
def aggOf (s d : IVec S625000 32) (h : FVec Ideal S100000x128 .f32) : FVec Ideal S100000x128 .f32 :=
  Host.scatterAdd scatter_S100000x128_S625000x1_S625000x128_1_0_0_1
    (broadcastInDim S100000x128 ![] bcast_S_S100000x128 (constant (F := Ideal) S_ .f32 0x00000000#32))
    (broadcastInDim S625000x1 ![0] bcast_S625000_S625000x1_0 d)
    (Host.gather gather_S100000x128_S625000x1_S625000x128_1_0_n_n_0_1_1128 h
      (broadcastInDim S625000x1 ![0] bcast_S625000_S625000x1_0
        (select (cmpi .slt s (broadcastInDim S625000 ![] bcast_S_S625000 (constantI S_ 32 0#32)))
          (addi s (broadcastInDim S625000 ![] bcast_S_S625000 (constantI S_ 32 100000#32))) s)))

/-- The in-degree: a one per edge added into entry `d` of a zero vector. -/
def deg (d : IVec S625000 32) : FVec Ideal S100000 .f32 :=
  Host.scatterAdd scatter_S100000_S625000x1_S625000_n_0_0_1
    (broadcastInDim S100000 ![] bcast_S_S100000 (constant (F := Ideal) S_ .f32 0x00000000#32))
    (broadcastInDim S625000x1 ![0] bcast_S625000_S625000x1_0 d)
    (broadcastInDim S625000 ![] bcast_S_S625000 (constant (F := Ideal) S_ .f32 0x3F800000#32))

/-- The divisor of every node, in-degree plus one, as a column. -/
def denom (d : IVec S625000 32) : FVec Ideal S100000x1 .f32 :=
  broadcastInDim S100000x1 ![0] bcast_S100000_S100000x1_0
    (addf (deg d) (broadcastInDim S100000 ![] bcast_S_S100000 (constant (F := Ideal) S_ .f32 0x3F800000#32)))

/-- A bias as a `1 × 128` row. -/
def biasRow (b : FVec Ideal S128 .f32) : FVec Ideal S1x128 .f32 := shapeCast _ b shapeCasts_S128_S1x128

/-- The first layer's result as a function of the arguments: the layer with the positive part, on the neighbour sum of
    `x`, `x` itself and the divisors. -/
def firstOf (x : FVec Ideal S100000x128 .f32) (e : IVec S2x625000 32) (W1 : FVec Ideal S128x128 .f32) (b1 : FVec Ideal S128 .f32) :
    FVec Ideal S100000x128 .f32 :=
  Cert.Sage.act (aggOf (srcOf e) (dstOf e) x) x (denom (dstOf e)) W1 (biasRow b1)

/-- The program's result as a function of the arguments: the layer on the neighbour sum of the first layer's result,
    that result itself and the same divisors. -/
def resultOf (x : FVec Ideal S100000x128 .f32) (e : IVec S2x625000 32) (W1 : FVec Ideal S128x128 .f32) (b1 : FVec Ideal S128 .f32)
    (W2 : FVec Ideal S128x128 .f32) (b2 : FVec Ideal S128 .f32) : FVec Ideal S100000x128 .f32 :=
  Cert.Sage.lin (aggOf (srcOf e) (dstOf e) (firstOf x e W1 b1)) (firstOf x e W1 b1) (denom (dstOf e)) W2 (biasRow b2)

variable (m : (ℓ : Loc nD τ sig) → Buf (Elt Ideal) ℓ) (ρ : Dev nD → PrngReg)

/-! ## What the first region finds -/

theorem entry0_src (c : Dev nD) : W1 m ρ c (Proc.devRef .tc main_v1) = srcOf (m ((c : Thread nD τ).loc main_arg1)) := by
  show StableHlo.after hostOps0 (W0 m ρ c) (Proc.devRef .tc main_v1) = _
  after_results_simp <;> rfl

theorem entry0_dst (c : Dev nD) : W1 m ρ c (Proc.devRef .tc main_v3) = dstOf (m ((c : Thread nD τ).loc main_arg1)) := by
  show StableHlo.after hostOps0 (W0 m ρ c) (Proc.devRef .tc main_v3) = _
  after_results_simp <;> rfl

theorem entry0_agg (c : Dev nD) :
    V1 m ρ c main_v20 = aggOf (srcOf (m ((c : Thread nD τ).loc main_arg1))) (dstOf (m ((c : Thread nD τ).loc main_arg1))) (m ((c : Thread nD τ).loc main_arg0)) := by
  show StableHlo.after hostOps0 (W0 m ρ c) (Proc.devRef .tc main_v20) = _
  after_results_simp <;> rfl

theorem entry0_x (c : Dev nD) : V1 m ρ c main_arg0 = m ((c : Thread nD τ).loc main_arg0) := by
  show StableHlo.after hostOps0 (W0 m ρ c) (Proc.devRef .tc main_arg0) = _
  after_results_simp <;> rfl

theorem entry0_denom (c : Dev nD) : V1 m ρ c main_v10 = denom (dstOf (m ((c : Thread nD τ).loc main_arg1))) := by
  show StableHlo.after hostOps0 (W0 m ρ c) (Proc.devRef .tc main_v10) = _
  after_results_simp <;> rfl

theorem entry0_w (c : Dev nD) : V1 m ρ c main_arg2 = m ((c : Thread nD τ).loc main_arg2) := by
  show StableHlo.after hostOps0 (W0 m ρ c) (Proc.devRef .tc main_arg2) = _
  after_results_simp <;> rfl

theorem entry0_bias (c : Dev nD) : V1 m ρ c main_v21 = biasRow (m ((c : Thread nD τ).loc main_arg3)) := by
  show StableHlo.after hostOps0 (W0 m ρ c) (Proc.devRef .tc main_v21) = _
  after_results_simp <;> rfl

/-- The second layer's weights and bias are not written before the first region. -/
theorem entry0_w2 (c : Dev nD) : W1 m ρ c (Proc.devRef .tc main_arg4) = m ((c : Thread nD τ).loc main_arg4) := by
  show StableHlo.after hostOps0 (W0 m ρ c) (Proc.devRef .tc main_arg4) = _
  after_results_simp <;> rfl

theorem entry0_b2 (c : Dev nD) : W1 m ρ c (Proc.devRef .tc main_arg5) = m ((c : Thread nD τ).loc main_arg5) := by
  show StableHlo.after hostOps0 (W0 m ρ c) (Proc.devRef .tc main_arg5) = _
  after_results_simp <;> rfl

/-! ## What the second region finds, over the contents the first region leaves (`W2`) -/

theorem entry1_agg (c : Dev nD) :
    V3 m ρ c main_v32 = aggOf (W2 m ρ c (Proc.devRef .tc main_v1)) (W2 m ρ c (Proc.devRef .tc main_v3)) (W2 m ρ c (Proc.devRef .tc main_v22)) := by
  show StableHlo.after hostOps1 (W2 m ρ c) (Proc.devRef .tc main_v32) = _
  after_results_simp <;> rfl

theorem entry1_h (c : Dev nD) : V3 m ρ c main_v22 = W2 m ρ c (Proc.devRef .tc main_v22) := by
  show StableHlo.after hostOps1 (W2 m ρ c) (Proc.devRef .tc main_v22) = _
  after_results_simp <;> rfl

theorem entry1_denom (c : Dev nD) : V3 m ρ c main_v10 = W2 m ρ c (Proc.devRef .tc main_v10) := by
  show StableHlo.after hostOps1 (W2 m ρ c) (Proc.devRef .tc main_v10) = _
  after_results_simp <;> rfl

theorem entry1_w (c : Dev nD) : V3 m ρ c main_arg4 = W2 m ρ c (Proc.devRef .tc main_arg4) := by
  show StableHlo.after hostOps1 (W2 m ρ c) (Proc.devRef .tc main_arg4) = _
  after_results_simp <;> rfl

theorem entry1_bias (c : Dev nD) : V3 m ρ c main_v33 = biasRow (W2 m ρ c (Proc.devRef .tc main_arg5)) := by
  show StableHlo.after hostOps1 (W2 m ρ c) (Proc.devRef .tc main_v33) = _
  after_results_simp <;> rfl

end Cert.KernelIdeal.Glue

end
-- ==== Proof.KValue.lean ====
/-
  The kernel program's result array as a function of its arguments.

  After the run every buffer holds the last boundary's contents. The result array is the second region's output:
  the layer function of what that region finds (the block-to-array step). What it finds is, through the host
  operations between the regions, the neighbour sum of the first region's output, that output itself, and the
  divisors, weights and bias that nothing has written since the launch. The first region's output is the layer with
  the positive part of what the first region finds, which the host operations before it compute from the arguments.
  Composed: `resultOf x e W1 b1 W2 b2` of the launch memory's arguments.
-/
import proofs.«153772_j35253091565752_1_alg».proof.Proof.KRun
import proofs.«153772_j35253091565752_1_alg».proof.Proof.Blocks
import proofs.«153772_j35253091565752_1_alg».proof.Proof.Glue

noncomputable section

namespace Cert.KernelIdeal.KValue

open Cert.KernelIdeal Cert.KernelIdeal.Gen Idealize.ShloMosaic Idealize.ShloMosaic.TcCoe Idealize.SL.Sem
open Cert.Sage Cert.KernelIdeal.Glue
open Idealize.ShloMosaic.Pipeline (Dat)

variable (m : (ℓ : Loc nD τ sig) → Buf (Elt Ideal) ℓ) (ρ : Dev nD → PrngReg)

/-! ## Between the regions: what the first region leaves, and what it does not touch -/

theorem mid_src (c : Dev nD) : W2 m ρ c (Proc.devRef .tc main_v1) = srcOf (m ((c : Thread nD τ).loc main_arg1)) :=
  (W2_of_ne m ρ c main_v1 (by decide)).trans (entry0_src m ρ c)

theorem mid_dst (c : Dev nD) : W2 m ρ c (Proc.devRef .tc main_v3) = dstOf (m ((c : Thread nD τ).loc main_arg1)) :=
  (W2_of_ne m ρ c main_v3 (by decide)).trans (entry0_dst m ρ c)

theorem mid_denom (c : Dev nD) : W2 m ρ c (Proc.devRef .tc main_v10) = denom (dstOf (m ((c : Thread nD τ).loc main_arg1))) :=
  ((W2_arr m ρ c 2).trans (((dat0 (V1 m ρ) c).arrAt_in 2 rfl _).trans (A_eq0 (V1 m ρ) c 2))).trans (entry0_denom m ρ c)

theorem mid_w2 (c : Dev nD) : W2 m ρ c (Proc.devRef .tc main_arg4) = m ((c : Thread nD τ).loc main_arg4) :=
  (W2_of_ne m ρ c main_arg4 (by decide)).trans (entry0_w2 m ρ c)

theorem mid_b2 (c : Dev nD) : W2 m ρ c (Proc.devRef .tc main_arg5) = m ((c : Thread nD τ).loc main_arg5) :=
  (W2_of_ne m ρ c main_arg5 (by decide)).trans (entry0_b2 m ρ c)

/-- The first region's output array is the first layer's result. -/
theorem mid_first (c : Dev nD) :
    W2 m ρ c (Proc.devRef .tc main_v22)
      = firstOf (m ((c : Thread nD τ).loc main_arg0)) (m ((c : Thread nD τ).loc main_arg1)) (m ((c : Thread nD τ).loc main_arg2)) (m ((c : Thread nD τ).loc main_arg3)) := by
  refine (W2_arr m ρ c 5).trans ((Blocks.final0 (V1 m ρ) c).trans ?_)
  show act (V1 m ρ c main_v20) (V1 m ρ c main_arg0) (V1 m ρ c main_v10) (V1 m ρ c main_arg2) (V1 m ρ c main_v21) = _
  rw [entry0_agg, entry0_x, entry0_denom, entry0_w, entry0_bias]
  rfl

/-! ## The result array -/

/-- After the run the result array is the program's function of the arguments. -/
theorem out_eq (c : Dev nD) :
    W4 m ρ c (Proc.devRef .tc main_v34)
      = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 5).trans ((Blocks.final1 (V3 m ρ) c).trans ?_)
  show lin (V3 m ρ c main_v32) (V3 m ρ c main_v22) (V3 m ρ c main_v10) (V3 m ρ c main_arg4) (V3 m ρ c main_v33) = _
  rw [entry1_agg, entry1_h, entry1_denom, entry1_w, entry1_bias, mid_src, mid_dst, mid_denom, mid_w2, mid_b2, mid_first]
  rfl

/-- The run, read: every weakly fair execution ends with the result array at the program's function of the
    arguments and the arguments as launched. -/
theorem run : θ_run defs (onTc (τ := τ) (main (F := Ideal))) ⟨m, fun _ => 0, ρ⟩ (fun r => ∀ c : Dev nD,
      r.2.mem ((c.tc : Thread nD τ).loc main_v34)
        = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v34 (by decide))).trans (out_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)
    (Cert.KernelIdeal.RunNamed.run_named m ρ)

end Cert.KernelIdeal.KValue

end
-- ==== Proof.RefLayer.lean ====
/-
  The reference, layer by layer, is the layer function.

  The reference computes a layer on whole arrays: `(agg + h) / d` with the divisor column broadcast along the rows,
  one product with the weight matrix, the bias row broadcast down the rows; the first layer is followed by the maximum
  with zero. Read at an entry `(r, j)` the product is the sum over the 128 feature coordinates, the broadcast divisor
  is the divisor of node `r`, the broadcast bias is the bias at `j`: the layer function `lin`, and `act` after the
  maximum. The second layer's neighbour sum is the same gather and scatter as the first's, applied to the first
  layer's result.
-/
import proofs.«153772_j35253091565752_1_alg».proof.Proof.Gen.ReferenceIdeal.Read
import proofs.«153772_j35253091565752_1_alg».proof.Proof.Layer
import Idealize.ShloMosaic.Lib.ValueIdx
import Idealize.ShloMosaic.Lib.Pipeline.Value
import Idealize.ShloMosaic.PureOps.Ideal.Laws

noncomputable section

namespace Cert.ReferenceIdeal.Layers

open Cert.ReferenceIdeal Cert.ReferenceIdeal.Gen Cert.ReferenceIdeal.Read Idealize.ShloMosaic Idealize.ShloMosaic.ValueIdx Cert.Sage

/-- The product with the weights at entry `(r, j)`: row `r` of the left operand against column `j` of the weights. -/
theorem dot_at (y : FVec Ideal S100000x128 .f32) (W : FVec Ideal S128x128 .f32) (r : Fin 100000) (j : Fin 128) :
    Host.dotGeneral dot_S100000x128_S128x128_S100000x128_1_0_0_1_n_n none y W (ix2 r j) = ∑ k : Fin 128, y (ix2 r k) * W (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r j) ((ValueIdx.contrEquiv1 dot_S100000x128_S128x128_S100000x128_1_0_0_1_n_n 128 rfl rfl).symm k) = ix2 r k := funext fun a => Fin.ext (by
    match a with
    | ⟨0, _⟩ => exact lhs_main_v24_0 _ _
    | ⟨1, _⟩ => exact (lhs_main_v24_1 _ _).trans hk)
  have er : dot_S100000x128_S128x128_S100000x128_1_0_0_1_n_n.rhsIdx (ix2 r j) ((ValueIdx.contrEquiv1 dot_S100000x128_S128x128_S100000x128_1_0_0_1_n_n 128 rfl rfl).symm k) = ix2 k j := funext fun a => Fin.ext (by
    match a with
    | ⟨0, _⟩ => exact (rhs_main_v24_0 _ _).trans hk
    | ⟨1, _⟩ => exact rhs_main_v24_1 _ _)
  rw [el, er]

/-- The divisor column broadcast along the rows, at `(r, k)`: the divisor of node `r`. -/
theorem bcast_col_at (d : S100000x1.Idx → EReal) (r : Fin 100000) (k : Fin 128) :
    broadcastInDim S100000x128 ![0, 1] bcast_S100000x1_S100000x128_0_1 d (ix2 r k) = d (ix2 r (0 : Fin 1)) :=
  broadcastInDim_apply _ bcast_S100000x1_S100000x128_0_1 d (ix2 r k) (ix2 r (0 : Fin 1)) (fun a => match a with
    | ⟨0, _⟩ => by show r.val = if (100000 : Nat) = 1 then 0 else r.val; rw [if_neg (by decide)]
    | ⟨1, _⟩ => by show (0 : Nat) = if (1 : Nat) = 1 then 0 else k.val; rw [if_pos rfl])

/-- The bias row broadcast down the rows, at `(r, j)`: the bias at `j`. -/
theorem bcast_row_at (b : S1x128.Idx → EReal) (r : Fin 100000) (j : Fin 128) :
    broadcastInDim S100000x128 ![0, 1] bcast_S1x128_S100000x128_0_1 b (ix2 r j) = b (ix2 (0 : Fin 1) j) :=
  broadcastInDim_apply _ bcast_S1x128_S100000x128_0_1 b (ix2 r j) (ix2 (0 : Fin 1) j) (fun a => match a with
    | ⟨0, _⟩ => by show (0 : Nat) = if (1 : Nat) = 1 then 0 else r.val; rw [if_pos rfl]
    | ⟨1, _⟩ => by show j.val = if (128 : Nat) = 1 then 0 else j.val; rw [if_neg (by decide)])

/-- The reference's layer on whole arrays is the layer function. -/
theorem layer_eq (a h : FVec Ideal S100000x128 .f32) (d : FVec Ideal S100000x1 .f32) (W : FVec Ideal S128x128 .f32)
    (b : FVec Ideal S1x128 .f32) :
    addf (Host.dotGeneral dot_S100000x128_S128x128_S100000x128_1_0_0_1_n_n none
        (Host.divf (addf a h) (broadcastInDim S100000x128 ![0, 1] bcast_S100000x1_S100000x128_0_1 d)) W)
      (broadcastInDim S100000x128 ![0, 1] bcast_S1x128_S100000x128_0_1 b)
    = lin a h d W b := by
  funext i
  obtain ⟨r, j, rfl⟩ : ∃ (r : Fin 100000) (j : Fin 128), i = ix2 r j := ⟨i 0, i 1, eq_ix2 i⟩
  show Host.dotGeneral dot_S100000x128_S128x128_S100000x128_1_0_0_1_n_n none (Host.divf (addf a h) (broadcastInDim S100000x128 ![0, 1] bcast_S100000x1_S100000x128_0_1 d)) W (ix2 r j)
      + broadcastInDim S100000x128 ![0, 1] bcast_S1x128_S100000x128_0_1 b (ix2 r j) = linAt a h d W b r j
  rw [dot_at, bcast_row_at]
  unfold linAt
  refine congrArg (fun s => s + b (ix2 (0 : Fin 1) j)) (Finset.sum_congr rfl fun k _ => ?_)
  show Ideal.div (a (ix2 r k) + h (ix2 r k)) (broadcastInDim S100000x128 ![0, 1] bcast_S100000x1_S100000x128_0_1 d (ix2 r k)) * W (ix2 k j) = _
  rw [bcast_col_at]

/-- The first layer's result: the layer function followed by the positive part. -/
theorem first_eq (x : FVec Ideal S100000x128 .f32) (e : IVec S2x625000 32) (W1 : FVec Ideal S128x128 .f32) (b1 : FVec Ideal S128 .f32) :
    val_main_v28 (F := Ideal) x e W1 b1 = act (val_main_v20 (F := Ideal) x e) x (val_main_v10 (F := Ideal) e) W1 (val_main_v25 (F := Ideal) b1) := by
  have hl : val_main_v27 (F := Ideal) x e W1 b1 = lin (val_main_v20 (F := Ideal) x e) x (val_main_v10 (F := Ideal) e) W1 (val_main_v25 (F := Ideal) b1) :=
    layer_eq (val_main_v20 (F := Ideal) x e) x (val_main_v10 (F := Ideal) e) W1 (val_main_v25 (F := Ideal) b1)
  funext i
  rw [val_main_v28_apply, hl, val_main_call0_v0_apply, val_main_call0_cst_apply]
  show max (lin _ _ _ _ _ i) (Ideal.ofBits .f32 0x00000000#32) = _
  rw [Ideal.ofBits_zero_f32]
  rfl

/-- The second layer's neighbour sum is the first layer's gather and scatter applied to the first layer's result. -/
theorem second_agg (x : FVec Ideal S100000x128 .f32) (e : IVec S2x625000 32) (W1 : FVec Ideal S128x128 .f32) (b1 : FVec Ideal S128 .f32) :
    val_main_v38 (F := Ideal) x e W1 b1 = val_main_v20 (F := Ideal) (val_main_v28 (F := Ideal) x e W1 b1) e := rfl

/-- The reference's result: the second layer's function of the first layer's result. -/
theorem result_eq (x : FVec Ideal S100000x128 .f32) (e : IVec S2x625000 32) (W1 : FVec Ideal S128x128 .f32) (b1 : FVec Ideal S128 .f32)
    (W2 : FVec Ideal S128x128 .f32) (b2 : FVec Ideal S128 .f32) :
    val_main_v45 (F := Ideal) x e W1 b1 W2 b2
      = lin (val_main_v20 (F := Ideal) (val_main_v28 (F := Ideal) x e W1 b1) e) (val_main_v28 (F := Ideal) x e W1 b1)
          (val_main_v10 (F := Ideal) e) W2 (val_main_v43 (F := Ideal) b2) := by
  rw [← second_agg]
  exact layer_eq (val_main_v38 (F := Ideal) x e W1 b1) (val_main_v28 (F := Ideal) x e W1 b1) (val_main_v10 (F := Ideal) e) W2 (val_main_v43 (F := Ideal) b2)

end Cert.ReferenceIdeal.Layers

end
-- ==== Proof.Bridge.lean ====
/-
  The kernel program's function of the arguments is the reference's.

  Both programs build the neighbour sum with the same gather and scatter, so those terms agree as written. The
  divisors differ in the order of two steps: the kernel's program adds one to the in-degree vector and then makes it a
  column, the reference makes the column first and adds a column of ones; entry by entry both are `deg + 1`. The bias
  row is a reshape of the bias on one side and a broadcast along a new leading axis on the other; entry by entry both
  are the bias. With these three the two layer compositions are one function.
-/
import proofs.«153772_j35253091565752_1_alg».proof.Proof.Glue
import proofs.«153772_j35253091565752_1_alg».proof.Proof.RefLayer
import Idealize.ShloMosaic.Lib.ValueLayout

noncomputable section

namespace Cert.Bridge

open Idealize.ShloMosaic Idealize.ShloMosaic.ValueIdx Cert.Sage
open Cert.KernelIdeal.Glue Cert.ReferenceIdeal.Read

/-- The neighbour sum: the same gather and scatter on both sides. -/
theorem agg_eq (e : IVec Cert.KernelIdeal.S2x625000 32) (h : FVec Ideal Cert.KernelIdeal.S100000x128 .f32) :
    aggOf (srcOf e) (dstOf e) h = val_main_v20 (F := Ideal) h e := rfl

/-- The in-degree: the same scatter of ones on both sides. -/
theorem deg_eq (e : IVec Cert.KernelIdeal.S2x625000 32) : deg (dstOf e) = val_main_v7 (F := Ideal) e := rfl

/-- The divisors: `deg + 1` as a column, whichever of the two steps comes first. -/
theorem denom_eq (e : IVec Cert.KernelIdeal.S2x625000 32) : denom (dstOf e) = val_main_v10 (F := Ideal) e := by
  funext i
  rw [val_main_v10_apply, val_main_v8_apply, val_main_v9_apply, val_main_cst_1_apply, ← deg_eq]
  unfold denom
  rw [broadcastInDim_apply _ _ _ i (idx_main_v8 i) (fun a => match a with
    | ⟨0, _⟩ => by show (i 0).val = if (100000 : Nat) = 1 then 0 else (i 0).val; rw [if_neg (by decide)])]
  rfl

/-- The bias as a row: a reshape on one side, a broadcast along a new leading axis on the other. -/
theorem bias_eq (b : FVec Ideal Cert.KernelIdeal.S128 .f32) : biasRow b = val_main_v25 (F := Ideal) b := by
  funext i
  obtain ⟨u, j, rfl⟩ : ∃ (u : Fin 1) (j : Fin 128), i = ix2 u j := ⟨i 0, i 1, eq_ix2 i⟩
  rw [val_main_v25_apply]
  unfold biasRow
  rw [shapeCast_a_1a_apply]
  refine congrArg b (funext fun a => ?_)
  match a with
  | ⟨0, _⟩ => rfl

/-- The second layer's bias row is built like the first's. -/
theorem bias2_eq (b : FVec Ideal Cert.KernelIdeal.S128 .f32) : biasRow b = val_main_v43 (F := Ideal) b := bias_eq b

/-- The first layer's result, on both sides. -/
theorem first_eq (x : FVec Ideal Cert.KernelIdeal.S100000x128 .f32) (e : IVec Cert.KernelIdeal.S2x625000 32)
    (W1 : FVec Ideal Cert.KernelIdeal.S128x128 .f32) (b1 : FVec Ideal Cert.KernelIdeal.S128 .f32) :
    firstOf x e W1 b1 = val_main_v28 (F := Ideal) x e W1 b1 := by
  rw [Cert.ReferenceIdeal.Layers.first_eq]
  unfold firstOf
  rw [agg_eq, denom_eq, bias_eq]

/-- The two programs' results are one function of the arguments. -/
theorem result_eq (x : FVec Ideal Cert.KernelIdeal.S100000x128 .f32) (e : IVec Cert.KernelIdeal.S2x625000 32)
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32) :
    val_main_v45 (F := Ideal) x e W1 b1 W2 b2 = resultOf x e W1 b1 W2 b2 := by
  rw [Cert.ReferenceIdeal.Layers.result_eq]
  unfold resultOf
  rw [first_eq, agg_eq, denom_eq, bias2_eq]

end Cert.Bridge

end
-- ==== Proof.lean ====
/-
  A two-layer mean-aggregating graph network on 100000 nodes with 128 features: the kernel program against its
  array-level reference, over the extended reals.

  Both programs take node features `x`, an edge list `e`, and two weight matrices and biases. With `deg` the in-degree
  of every node and `agg h` the sum of `h` over a node's incoming edges, a layer is
  `h ↦ ((agg h + h) / (deg + 1)) · W + b`; the first layer is followed by the positive part, the second is the result.
  The reference applies each layer to whole arrays. The kernel program computes `agg` and `deg` with the same gather
  and scatter, and runs the rest of each layer in a kernel region over twenty blocks of 5000 nodes, the matrix product
  on the matrix unit from operands narrowed to a shorter float format.

  On the extended reals a change of float format is the identity and a matrix product is the sum of products over the
  feature coordinates, so each block the kernel writes is the corresponding rows of the layer's function of the
  arrays the region finds; the blocks tile the nodes, so each region's output array is that function. Followed through
  the host operations around the regions, the kernel program's result is the same composition of two layers as the
  reference's. No algebraic law beyond the reading of each operation at an entry is used, and the precondition is not
  needed for it.

  The three frame claims are the generated frames (the reference's is its generated run with the result dropped); the
  idealization rewrote nothing, so `preserves` is trivial.
-/
import proofs.«153772_j35253091565752_1_alg».proof.Defs
import proofs.«153772_j35253091565752_1_alg».proof.Proof.Gen.Kernel
import proofs.«153772_j35253091565752_1_alg».proof.Proof.Gen.Kernel.Skeleton
import proofs.«153772_j35253091565752_1_alg».proof.Proof.Gen.Kernel.Launch
import proofs.«153772_j35253091565752_1_alg».proof.Proof.Gen.Kernel.Points
import proofs.«153772_j35253091565752_1_alg».proof.Proof.Gen.Kernel.Frame
import proofs.«153772_j35253091565752_1_alg».proof.Proof.Gen.KernelIdeal
import proofs.«153772_j35253091565752_1_alg».proof.Proof.Gen.KernelIdeal.Skeleton
import proofs.«153772_j35253091565752_1_alg».proof.Proof.Gen.KernelIdeal.Launch
import proofs.«153772_j35253091565752_1_alg».proof.Proof.Gen.KernelIdeal.Points
import proofs.«153772_j35253091565752_1_alg».proof.Proof.Gen.KernelIdeal.Frame
import proofs.«153772_j35253091565752_1_alg».proof.Proof.Gen.ReferenceIdeal
import proofs.«153772_j35253091565752_1_alg».proof.Proof.Gen.Pre_finite_inputs
import proofs.«153772_j35253091565752_1_alg».proof.Proof.Gen.ReferenceIdeal.Run
import proofs.«153772_j35253091565752_1_alg».proof.Proof.Gen.ReferenceIdeal.Read
import proofs.«153772_j35253091565752_1_alg».proof.Proof.KValue
import proofs.«153772_j35253091565752_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at one function of the
    arguments: the kernel program's run read through its two regions, the reference's run read layer by layer. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2.1,
    (hagree c).2.2.2.2.1, (hagree c).2.2.2.2.2]
  exact Cert.Bridge.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
